-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x13 : Shape := ⟨3, ![64, 2048, 13]⟩
abbrev S13x256 : Shape := ⟨2, ![13, 256]⟩
abbrev S256 : Shape := ⟨1, ![256]⟩
abbrev S256x256 : Shape := ⟨2, ![256, 256]⟩
abbrev S256x80 : Shape := ⟨2, ![256, 80]⟩
abbrev S80 : Shape := ⟨1, ![80]⟩
abbrev S_ : Shape := ⟨0, ![]⟩

class Facts : Prop where
  bcast_S_S64x2048x13 : S_.BroadcastsInDim S64x2048x13 (![] : Fin 0 → Fin S64x2048x13.rank)
  reducesTo_S64x2048x13_S_d0_1_2 : S64x2048x13.ReducesTo [0, 1, 2] S_
  h_S_ : 0 < S_.numel
  bcast_S_S13x256 : S_.BroadcastsInDim S13x256 (![] : Fin 0 → Fin S13x256.rank)
  reducesTo_S13x256_S_d0_1 : S13x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x80 : S_.BroadcastsInDim S256x80 (![] : Fin 0 → Fin S256x80.rank)
  reducesTo_S256x80_S_d0_1 : S256x80.ReducesTo [0, 1] S_
  bcast_S_S80 : S_.BroadcastsInDim S80 (![] : Fin 0 → Fin S80.rank)
  reducesTo_S80_S_d0 : S80.ReducesTo [0] S_

variable [Facts]

def fn_part2 {F : FTy → Type} [FloatOps F] (main_arg7 : FVec F S256x80 .f32) (main_arg8 : FVec F S80 .f32) (main_v33 : IVec S_ 1) : IVec S_ 1 :=
  let main_v34 : FVec F S256x80 .f32 := Host.absf main_arg7
  let main_cst_12 : FVec F S_ .f32 := constant S_ .f32 0x7F800000#32
  let main_v35 : FVec F S256x80 .f32 := broadcastInDim S256x80 ![] bcast_S_S256x80 main_cst_12
  let main_v36 : IVec S256x80 1 := cmpf .olt main_v34 main_v35
  let main_c_13 : IVec S_ 1 := constantI S_ 1 1#1
  let main_v37 : IVec S_ 1 := (fun x v => Host.reduce IntOp.andi x v reducesTo_S256x80_S_d0_1 h_S_) main_v36 main_c_13
  let main_v38 : IVec S_ 1 := andi main_v33 main_v37
  let main_v39 : FVec F S80 .f32 := Host.absf main_arg8
  let main_cst_14 : FVec F S_ .f32 := constant S_ .f32 0x7F800000#32
  let main_v40 : FVec F S80 .f32 := broadcastInDim S80 ![] bcast_S_S80 main_cst_14
  let main_v41 : IVec S80 1 := cmpf .olt main_v39 main_v40
  let main_c_15 : IVec S_ 1 := constantI S_ 1 1#1
  let main_v42 : IVec S_ 1 := (fun x v => Host.reduce IntOp.andi x v reducesTo_S80_S_d0 h_S_) main_v41 main_c_15
  let main_v43 : IVec S_ 1 := andi main_v38 main_v42
  main_v43

def fn_part1 {F : FTy → Type} [FloatOps F] (main_arg4 : FVec F S256 .f32) (main_arg5 : FVec F S256x256 .f32) (main_arg6 : FVec F S256 .f32) (main_arg7 : FVec F S256x80 .f32) (main_arg8 : FVec F S80 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S64x2048x13 .f32) (main_arg1 : FVec F S13x256 .f32) (main_arg2 : FVec F S256 .f32) (main_arg3 : FVec F S256x256 .f32) (main_arg4 : FVec F S256 .f32) (main_arg5 : FVec F S256x256 .f32) (main_arg6 : FVec F S256 .f32) (main_arg7 : FVec F S256x80 .f32) (main_arg8 : FVec F S80 .f32) : IVec S_ 1 :=
  let main_v0 : FVec F S64x2048x13 .f32 := Host.absf main_arg0
  let main_cst : FVec F S_ .f32 := constant S_ .f32 0x7F800000#32
  let main_v1 : FVec F S64x2048x13 .f32 := broadcastInDim S64x2048x13 ![] bcast_S_S64x2048x13 main_cst
  let main_v2 : IVec S64x2048x13 1 := cmpf .olt main_v0 main_v1
  let main_c : IVec S_ 1 := constantI S_ 1 1#1
  let main_v3 : IVec S_ 1 := (fun x v => Host.reduce IntOp.andi x v reducesTo_S64x2048x13_S_d0_1_2 h_S_) main_v2 main_c
  let main_v4 : FVec F S13x256 .f32 := Host.absf main_arg1
  let main_cst_0 : FVec F S_ .f32 := constant S_ .f32 0x7F800000#32
  let main_v5 : FVec F S13x256 .f32 := broadcastInDim S13x256 ![] bcast_S_S13x256 main_cst_0
  let main_v6 : IVec S13x256 1 := cmpf .olt main_v4 main_v5
  let main_c_1 : IVec S_ 1 := constantI S_ 1 1#1
  let main_v7 : IVec S_ 1 := (fun x v => Host.reduce IntOp.andi x v reducesTo_S13x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_v13 main_v16
-- ==== Kernel.lean ====
abbrev S64x2048x13 : Shape := ⟨3, ![64, 2048, 13]⟩
abbrev S13x256 : Shape := ⟨2, ![13, 256]⟩
abbrev S256 : Shape := ⟨1, ![256]⟩
abbrev S256x256 : Shape := ⟨2, ![256, 256]⟩
abbrev S256x80 : Shape := ⟨2, ![256, 80]⟩
abbrev S80 : Shape := ⟨1, ![80]⟩
abbrev S131072x13 : Shape := ⟨2, ![131072, 13]⟩
abbrev S1x256 : Shape := ⟨2, ![1, 256]⟩
abbrev S1x80 : Shape := ⟨2, ![1, 80]⟩
abbrev S131072x80 : Shape := ⟨2, ![131072, 80]⟩
abbrev S4096x13 : Shape := ⟨2, ![4096, 13]⟩
abbrev S4096x80 : Shape := ⟨2, ![4096, 80]⟩
abbrev S4096x256 : Shape := ⟨2, ![4096, 256]⟩
abbrev S64x2048x80 : Shape := ⟨3, ![64, 2048, 80]⟩

abbrev nBuf : Space → Nat
  | .hbm => 16
  | .vmem => 12
  | .smem => 0
  | _ => 0

abbrev bufTy : (tb : Table) → Fin (tcTables nBuf tb) → BufTy
  | .hbm, ⟨0, _⟩ => ⟨S64x2048x13, .f32⟩
  | .hbm, ⟨1, _⟩ => ⟨S13x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x80, .f32⟩
  | .hbm, ⟨8, _⟩ => ⟨S80, .f32⟩
  | .hbm, ⟨9, _⟩ => ⟨S131072x13, .f32⟩
  | .hbm, ⟨10, _⟩ => ⟨S1x256, .f32⟩
  | .hbm, ⟨11, _⟩ => ⟨S1x256, .f32⟩
  | .hbm, ⟨12, _⟩ => ⟨S1x256, .f32⟩
  | .hbm, ⟨13, _⟩ => ⟨S1x80, .f32⟩
  | .hbm, ⟨14, _⟩ => ⟨S131072x80, .f32⟩
  | .hbm, ⟨15, _⟩ => ⟨S64x2048x80, .f32⟩
  | .local _ .vmem, ⟨0, _⟩ => ⟨S4096x13, .f32⟩
  | .local _ .vmem, ⟨1, _⟩ => ⟨S4096x13, .f32⟩
  | .local _ .vmem, ⟨2, _⟩ => ⟨S13x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S256x80, .f32⟩
  | .local _ .vmem, ⟨9, _⟩ => ⟨S1x80, .f32⟩
  | .local _ .vmem, ⟨10, _⟩ => ⟨S4096x80, .f32⟩
  | .local _ .vmem, ⟨11, _⟩ => ⟨S4096x80, .f32⟩
  | _, _ => ⟨S64x2048x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S13x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x80 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x80 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x80 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S64x2048x13_S131072x13 : S64x2048x13.ShapeCasts S131072x13
  shapeCasts_S256_S1x256 : S256.ShapeCasts S1x256
  shapeCasts_S80_S1x80 : S80.ShapeCasts S1x80
  inb_S4096x13_S4096x13_0_0 : ∀ a, (![0, 0] : Fin 2 → Nat) a + S4096x13.size a ≤ S4096x13.size a
  h_S4096x13 : 0 < S4096x13.numel
  shapeCasts_S4096x13_S4096x13 : S4096x13.ShapeCasts S4096x13
  bitsLt_bf16_f32 : FTy.bits .bf16 < FTy.bits .f32
  inb_S13x256_S13x256_0_0 : ∀ a, (![0, 0] : Fin 2 → Nat) a + S13x256.size a ≤ S13x256.size a
  h_S13x256 : 0 < S13x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S256x256_S256x256_0_0 : ∀ a, (![0, 0] : Fin 2 → Nat) a + S256x256.size a ≤ S256x256.size a
  h_S256x256 : 0 < S256x256.numel
  inb_S256x80_S256x80_0_0 : ∀ a, (![0, 0] : Fin 2 → Nat) a + S256x80.size a ≤ S256x80.size a
  h_S256x80 : 0 < S256x80.numel
  inb_S1x80_S1x80_0_0 : ∀ a, (![0, 0] : Fin 2 → Nat) a + S1x80.size a ≤ S1x80.size a
  h_S1x80 : 0 < S1x80.numel
  shapeCasts_S1x80_S1x80 : S1x80.ShapeCasts S1x80
  broadcasts_S1x80_S4096x80 : S1x80.Broadcasts S4096x80
  inb_S4096x80_S4096x80_0_0 : ∀ a, (![0, 0] : Fin 2 → Nat) a + S4096x80.size a ≤ S4096x80.size a
  h_S4096x80 : 0 < S4096x80.numel
  shapeCasts_S131072x80_S64x2048x80 : S131072x80.ShapeCasts S64x2048x80
  dot_S4096x13_S13x256_S4096x256_1_0_0_1_n_n_wf : DotDims.WF S4096x13 S13x256 S4096x256 [1] [0] [0] [1] [] []
  dot_S4096x256_S256x256_S4096x256_1_0_0_1_n_n_wf : DotDims.WF S4096x256 S256x256 S4096x256 [1] [0] [0] [1] [] []
  dot_S4096x256_S256x80_S4096x80_1_0_0_1_n_n_wf : DotDims.WF S4096x256 S256x80 S4096x80 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x13.size a ≤ S131072x13.size a
  hwx0_0 : ∀ i : grid0.Coords, EltTy.bits .f32 = 32 ∨ (Rect.block (s := S131072x13) S4096x13.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S13x256.size a ≤ S13x256.size a
  hwx0_1 : ∀ i : grid0.Coords, EltTy.bits .f32 = 32 ∨ (Rect.block (s := S13x256) S13x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x80.size a ≤ S256x80.size a
  hwx0_7 : ∀ i : grid0.Coords, EltTy.bits .f32 = 32 ∨ (Rect.block (s := S256x80) S256x80.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x80.size a ≤ S1x80.size a
  hwx0_8 : ∀ i : grid0.Coords, EltTy.bits .f32 = 32 ∨ (Rect.block (s := S1x80) S1x80.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x80.size a ≤ S131072x80.size a
  hwx0_9 : ∀ i : grid0.Coords, EltTy.bits .f32 = 32 ∨ (Rect.block (s := S131072x80) S4096x80.size (cc0_transform_9 i) (hinb0_9 i)).WholeWords (EltTy.packing .f32)

variable [Facts₀]

def dot_S4096x13_S13x256_S4096x256_1_0_0_1_n_n : DotDims S4096x13 S13x256 S4096x256 where
  lhsContracting := [1]
  rhsContracting := [0]
  lhsNonContracting := [0]
  rhsNonContracting := [1]
  lhsBatch := []
  rhsBatch := []
  wf := dot_S4096x13_S13x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x80_S4096x80_1_0_0_1_n_n : DotDims S4096x256 S256x80 S4096x80 where
  lhsContracting := [1]
  rhsContracting := [0]
  lhsNonContracting := [0]
  rhsNonContracting := [1]
  lhsBatch := []
  rhsBatch := []
  wf := dot_S4096x256_S256x80_S4096x80_1_0_0_1_n_n_wf

abbrev win0_0 : Pipeline.Window sig grid0 :=
  Pipeline.Window.ofSpec (Memref.whole main_v0) S4096x13.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S13x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x80.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x80.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S4096x80.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S64x2048x13 : Shape := ⟨3, ![64, 2048, 13]⟩
abbrev S13x256 : Shape := ⟨2, ![13, 256]⟩
abbrev S256 : Shape := ⟨1, ![256]⟩
abbrev S256x256 : Shape := ⟨2, ![256, 256]⟩
abbrev S256x80 : Shape := ⟨2, ![256, 80]⟩
abbrev S80 : Shape := ⟨1, ![80]⟩
abbrev S64x2048x256 : Shape := ⟨3, ![64, 2048, 256]⟩
abbrev S1x1x256 : Shape := ⟨3, ![1, 1, 256]⟩
abbrev S_ : Shape := ⟨0, ![]⟩
abbrev S64x2048x80 : Shape := ⟨3, ![64, 2048, 80]⟩
abbrev S1x1x80 : Shape := ⟨3, ![1, 1, 80]⟩

abbrev nBuf : Space → Nat
  | .hbm => 34
  | .vmem => 0
  | .smem => 0
  | _ => 0

abbrev bufTy : (tb : Table) → Fin (tcTables nBuf tb) → BufTy
  | .hbm, ⟨0, _⟩ => ⟨S64x2048x13, .f32⟩
  | .hbm, ⟨1, _⟩ => ⟨S13x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x80, .f32⟩
  | .hbm, ⟨8, _⟩ => ⟨S80, .f32⟩
  | .hbm, ⟨9, _⟩ => ⟨S64x2048x256, .f32⟩
  | .hbm, ⟨10, _⟩ => ⟨S1x1x256, .f32⟩
  | .hbm, ⟨11, _⟩ => ⟨S64x2048x256, .f32⟩
  | .hbm, ⟨12, _⟩ => ⟨S64x2048x256, .f32⟩
  | .hbm, ⟨13, _⟩ => ⟨S_, .f32⟩
  | .hbm, ⟨14, _⟩ => ⟨S64x2048x256, .f32⟩
  | .hbm, ⟨15, _⟩ => ⟨S64x2048x256, .f32⟩
  | .hbm, ⟨16, _⟩ => ⟨S64x2048x256, .f32⟩
  | .hbm, ⟨17, _⟩ => ⟨S1x1x256, .f32⟩
  | .hbm, ⟨18, _⟩ => ⟨S64x2048x256, .f32⟩
  | .hbm, ⟨19, _⟩ => ⟨S64x2048x256, .f32⟩
  | .hbm, ⟨20, _⟩ => ⟨S_, .f32⟩
  | .hbm, ⟨21, _⟩ => ⟨S64x2048x256, .f32⟩
  | .hbm, ⟨22, _⟩ => ⟨S64x2048x256, .f32⟩
  | .hbm, ⟨23, _⟩ => ⟨S64x2048x256, .f32⟩
  | .hbm, ⟨24, _⟩ => ⟨S1x1x256, .f32⟩
  | .hbm, ⟨25, _⟩ => ⟨S64x2048x256, .f32⟩
  | .hbm, ⟨26, _⟩ => ⟨S64x2048x256, .f32⟩
  | .hbm, ⟨27, _⟩ => ⟨S_, .f32⟩
  | .hbm, ⟨28, _⟩ => ⟨S64x2048x256, .f32⟩
  | .hbm, ⟨29, _⟩ => ⟨S64x2048x256, .f32⟩
  | .hbm, ⟨30, _⟩ => ⟨S64x2048x80, .f32⟩
  | .hbm, ⟨31, _⟩ => ⟨S1x1x80, .f32⟩
  | .hbm, ⟨32, _⟩ => ⟨S64x2048x80, .f32⟩
  | .hbm, ⟨33, _⟩ => ⟨S64x2048x80, .f32⟩
  | _, _ => ⟨S64x2048x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call2_cst : Ref sig .tc := ⟨.hbm, 27, rfl⟩
abbrev main_call2_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S64x2048x256_0_1_2 : S1x1x256.BroadcastsInDim S64x2048x256 (![0, 1, 2] : Fin 3 → Fin S64x2048x256.rank)
  bcast_S_S64x2048x256 : S_.BroadcastsInDim S64x2048x256 (![] : Fin 0 → Fin S64x2048x256.rank)
  bcast_S80_S1x1x80_2 : S80.BroadcastsInDim S1x1x80 (![2] : Fin 1 → Fin S1x1x80.rank)
  bcast_S1x1x80_S64x2048x80_0_1_2 : S1x1x80.BroadcastsInDim S64x2048x80 (![0, 1, 2] : Fin 3 → Fin S64x2048x80.rank)
  dot_S64x2048x13_S13x256_S64x2048x256_2_0_01_1_n_n_wf : DotDims.WF S64x2048x13 S13x256 S64x2048x256 [2] [0] [0, 1] [1] [] []
  dot_S64x2048x256_S256x256_S64x2048x256_2_0_01_1_n_n_wf : DotDims.WF S64x2048x256 S256x256 S64x2048x256 [2] [0] [0, 1] [1] [] []
  dot_S64x2048x256_S256x80_S64x2048x80_2_0_01_1_n_n_wf : DotDims.WF S64x2048x256 S256x80 S64x2048x80 [2] [0] [0, 1] [1] [] []

variable [Facts₀]

def dot_S64x2048x13_S13x256_S64x2048x256_2_0_01_1_n_n : DotDims S64x2048x13 S13x256 S64x2048x256 where
  lhsContracting := [2]
  rhsContracting := [0]
  lhsNonContracting := [0, 1]
  rhsNonContracting := [1]
  lhsBatch := []
  rhsBatch := []
  wf := dot_S64x2048x13_S13x256_S64x2048x256_2_0_01_1_n_n_wf
def dot_S64x2048x256_S256x256_S64x2048x256_2_0_01_1_n_n : DotDims S64x2048x256 S256x256 S64x2048x256 where
  lhsContracting := [2]
  rhsContracting := [0]
  lhsNonContracting := [0, 1]
  rhsNonContracting := [1]
  lhsBatch := []
  rhsBatch := []
  wf := dot_S64x2048x256_S256x256_S64x2048x256_2_0_01_1_n_n_wf
def dot_S64x2048x256_S256x80_S64x2048x80_2_0_01_1_n_n : DotDims S64x2048x256 S256x80 S64x2048x80 where
  lhsContracting := [2]
  rhsContracting := [0]
  lhsNonContracting := [0, 1]
  rhsNonContracting := [1]
  lhsBatch := []
  rhsBatch := []
  wf := dot_S64x2048x256_S256x80_S64x2048x80_2_0_01_1_n_n_wf

class Facts : Prop extends Facts₀ where

variable [Facts]
-- ==== Proof.Spec.lean ====
/-
  The function both programs compute, over the extended reals.

  The network is four affine layers applied to each row of the input independently, the first three followed by
  the rectifier `max · 0`. For a row `x : Fin K → EReal`, a weight matrix `W` of shape [K, N] and a bias `b` of
  shape [N], the affine layer is `j ↦ (∑ a, x a * W (a, j)) + b j`. The row of the batch at position `(s, t)`
  is `a ↦ X (s, t, a)`, and the result at `(s, t, j)` is the network of that row at `j`.

  Nothing here depends on a program: the shapes are the literal ones, and the zero the rectifier compares with is
  the value of the f32 zero word, kept as a word so that it is never evaluated.
-/
import Idealize.ShloMosaic.Lib.ValueIdx
import Idealize.ShloMosaic.PureOps.Ideal.Laws

noncomputable section

namespace Cert.Mlp

open Idealize.ShloMosaic Idealize.ShloMosaic.ValueIdx

/-- The value the rectifier compares with: the f32 zero word read at the ideal instance. -/
abbrev zeroWord : EReal := Ideal.ofBits .f32 0x00000000#32

/-- One affine layer on a row: the row times the weight matrix, plus the bias. -/
def affine {K N : Nat} (x : Fin K → EReal) (W : (⟨2, ![K, N]⟩ : Shape).Idx → EReal)
    (b : (⟨1, ![N]⟩ : Shape).Idx → EReal) (j : Fin N) : EReal :=
  (∑ a : Fin K, x a * W (ix2 a j)) + b (ix1 j)

/-- The rectifier, entry by entry. -/
def rect {N : Nat} (v : Fin N → EReal) (j : Fin N) : EReal := max (v j) zeroWord

/-- The four layers on one row of 13 features: 13 → 256 → 256 → 256 → 80. -/
def net (x : Fin 13 → EReal)
    (W1 : (⟨2, ![13, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (W3 : (⟨2, ![256, 256]⟩ : Shape).Idx → EReal) (b3 : (⟨1, ![256]⟩ : Shape).Idx → EReal)
    (W4 : (⟨2, ![256, 80]⟩ : Shape).Idx → EReal) (b4 : (⟨1, ![80]⟩ : Shape).Idx → EReal) : Fin 80 → EReal :=
  affine (rect (affine (rect (affine (rect (affine x W1 b1)) W2 b2)) W3 b3)) W4 b4

/-- The result array, index by index: at `(s, t, j)` the network of row `(s, t)` of the input, at `j`. -/
def result (X : (⟨3, ![64, 2048, 13]⟩ : Shape).Idx → EReal)
    (W1 : (⟨2, ![13, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (W3 : (⟨2, ![256, 256]⟩ : Shape).Idx → EReal) (b3 : (⟨1, ![256]⟩ : Shape).Idx → EReal)
    (W4 : (⟨2, ![256, 80]⟩ : Shape).Idx → EReal) (b4 : (⟨1, ![80]⟩ : Shape).Idx → EReal) :
    (⟨3, ![64, 2048, 80]⟩ : Shape).Idx → EReal :=
  fun i => net (fun a => X (ix3 (i 0) (i 1) a)) W1 b1 W2 b2 W3 b3 W4 b4 (i 2)

end Cert.Mlp

end
-- ==== Proof.RefSide.lean ====
/-
  The reference computes the specification.

  The reference is a chain of host operations: a contraction of the last axis of a [64, 2048, K] array with the
  first axis of a [K, N] matrix, the bias broadcast along the two leading axes, and a maximum with a broadcast
  zero. Read at an index `(s, t, j)`, the contraction is the sum over `a : Fin K` of the left operand at
  `(s, t, a)` times the matrix at `(a, j)`, the broadcast bias is the bias at `j`, and the broadcast zero is
  the zero word: exactly one affine layer and one rectifier of the row `(s, t)`. Four such layers, the last
  without the rectifier, give the specification's `result`.
-/
import proofs.«136486_j16054587752846_1_alg».proof.Proof.Gen.ReferenceIdeal.Read
import proofs.«136486_j16054587752846_1_alg».proof.Proof.Spec

noncomputable section

namespace Cert.Mlp.Ref

open Idealize.ShloMosaic Idealize.ShloMosaic.ValueIdx
open Cert.ReferenceIdeal Cert.ReferenceIdeal.Read

/-! ## The index maps of the generated stages, at `(s, t, j)` -/

theorem lidx0 (s : Fin 64) (t : Fin 2048) (j : Fin 256) (k : Fin 13) : lidx_main_v0 (ix3 s t j) k = ix3 s t k :=
  funext fun a => by match a with | ⟨0, _⟩ => rfl | ⟨1, _⟩ => rfl | ⟨2, _⟩ => rfl
theorem ridx0 (s : Fin 64) (t : Fin 2048) (j : Fin 256) (k : Fin 13) : ridx_main_v0 (ix3 s t j) k = ix2 k j :=
  funext fun a => by match a with | ⟨0, _⟩ => rfl | ⟨1, _⟩ => rfl
theorem lidx5 (s : Fin 64) (t : Fin 2048) (j : Fin 256) (k : Fin 256) : lidx_main_v5 (ix3 s t j) k = ix3 s t k :=
  funext fun a => by match a with | ⟨0, _⟩ => rfl | ⟨1, _⟩ => rfl | ⟨2, _⟩ => rfl
theorem ridx5 (s : Fin 64) (t : Fin 2048) (j : Fin 256) (k : Fin 256) : ridx_main_v5 (ix3 s t j) k = ix2 k j :=
  funext fun a => by match a with | ⟨0, _⟩ => rfl | ⟨1, _⟩ => rfl
theorem lidx10 (s : Fin 64) (t : Fin 2048) (j : Fin 256) (k : Fin 256) : lidx_main_v10 (ix3 s t j) k = ix3 s t k :=
  funext fun a => by match a with | ⟨0, _⟩ => rfl | ⟨1, _⟩ => rfl | ⟨2, _⟩ => rfl
theorem ridx10 (s : Fin 64) (t : Fin 2048) (j : Fin 256) (k : Fin 256) : ridx_main_v10 (ix3 s t j) k = ix2 k j :=
  funext fun a => by match a with | ⟨0, _⟩ => rfl | ⟨1, _⟩ => rfl
theorem lidx15 (s : Fin 64) (t : Fin 2048) (j : Fin 80) (k : Fin 256) : lidx_main_v15 (ix3 s t j) k = ix3 s t k :=
  funext fun a => by match a with | ⟨0, _⟩ => rfl | ⟨1, _⟩ => rfl | ⟨2, _⟩ => rfl
theorem ridx15 (s : Fin 64) (t : Fin 2048) (j : Fin 80) (k : Fin 256) : ridx_main_v15 (ix3 s t j) k = ix2 k j :=
  funext fun a => by match a with | ⟨0, _⟩ => rfl | ⟨1, _⟩ => rfl

/-- The bias of a hidden layer, broadcast to [1, 1, 256] and then to [64, 2048, 256], is read at its last coordinate. -/
theorem bias1 (s : Fin 64) (t : Fin 2048) (j : Fin 256) : idx_main_v1 (idx_main_v2 (ix3 s t j)) = ix1 j :=
  funext fun a => by match a with | ⟨0, _⟩ => rfl
theorem bias6 (s : Fin 64) (t : Fin 2048) (j : Fin 256) : idx_main_v6 (idx_main_v7 (ix3 s t j)) = ix1 j :=
  funext fun a => by match a with | ⟨0, _⟩ => rfl
theorem bias11 (s : Fin 64) (t : Fin 2048) (j : Fin 256) : idx_main_v11 (idx_main_v12 (ix3 s t j)) = ix1 j :=
  funext fun a => by match a with | ⟨0, _⟩ => rfl
theorem bias16 (s : Fin 64) (t : Fin 2048) (j : Fin 80) : idx_main_v16 (idx_main_v17 (ix3 s t j)) = ix1 j :=
  funext fun a => by match a with | ⟨0, _⟩ => rfl

/-! ## The layers -/

/-- First hidden layer: the rectified affine image of row `(s, t)` of the input. -/
theorem layer1 (x0 : (⟨S64x2048x13, .f32⟩ : BufTy).Contents (Elt Ideal)) (x1 : (⟨S13x256, .f32⟩ : BufTy).Contents (Elt Ideal)) (x2 : (⟨S256, .f32⟩ : BufTy).Contents (Elt Ideal)) (s : Fin 64) (t : Fin 2048) :
    (fun j : Fin 256 => val_main_v4 (F := Ideal) x0 x1 x2 (ix3 s t j)) = rect (affine (fun a => x0 (ix3 s t a)) x1 x2) := by
  funext j
  rw [val_main_v4_apply, val_main_v3_apply, val_main_v0_apply, val_main_v2_apply, val_main_v1_apply,
    val_main_call0_v0_apply, val_main_call0_cst_apply]
  simp only [lidx0, ridx0, bias1]
  rfl

/-- Second hidden layer, of the first. -/
theorem layer2 (x0 : (⟨S64x2048x13, .f32⟩ : BufTy).Contents (Elt Ideal)) (x1 : (⟨S13x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (s : Fin 64) (t : Fin 2048) :
    (fun j : Fin 256 => val_main_v9 (F := Ideal) x0 x1 x2 x3 x4 (ix3 s t j))
      = rect (affine (fun a => val_main_v4 (F := Ideal) x0 x1 x2 (ix3 s t a)) x3 x4) := by
  funext j
  rw [val_main_v9_apply, val_main_v8_apply, val_main_v5_apply, val_main_v7_apply, val_main_v6_apply,
    val_main_call1_v0_apply, val_main_call1_cst_apply]
  simp only [lidx5, ridx5, bias6]
  rfl

/-- Third hidden layer, of the second. -/
theorem layer3 (x0 : (⟨S64x2048x13, .f32⟩ : BufTy).Contents (Elt Ideal)) (x1 : (⟨S13x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (s : Fin 64) (t : Fin 2048) :
    (fun j : Fin 256 => val_main_v14 (F := Ideal) x0 x1 x2 x3 x4 x5 x6 (ix3 s t j))
      = rect (affine (fun a => val_main_v9 (F := Ideal) x0 x1 x2 x3 x4 (ix3 s t a)) x5 x6) := by
  funext j
  rw [val_main_v14_apply, val_main_v13_apply, val_main_v10_apply, val_main_v12_apply, val_main_v11_apply,
    val_main_call2_v0_apply, val_main_call2_cst_apply]
  simp only [lidx10, ridx10, bias11]
  rfl

/-- The output layer, of the third: affine, no rectifier. -/
theorem layer4 (x0 : (⟨S64x2048x13, .f32⟩ : BufTy).Contents (Elt Ideal)) (x1 : (⟨S13x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x80, .f32⟩ : BufTy).Contents (Elt Ideal)) (x8 : (⟨S80, .f32⟩ : BufTy).Contents (Elt Ideal)) (s : Fin 64) (t : Fin 2048) :
    (fun j : Fin 80 => val_main_v18 (F := Ideal) x0 x1 x2 x3 x4 x5 x6 x7 x8 (ix3 s t j))
      = affine (fun a => val_main_v14 (F := Ideal) x0 x1 x2 x3 x4 x5 x6 (ix3 s t a)) x7 x8 := by
  funext j
  rw [val_main_v18_apply, val_main_v15_apply, val_main_v17_apply, val_main_v16_apply]
  simp only [lidx15, ridx15, bias16]
  rfl

/-- The reference's result stage is the specification's `result` of the arguments. -/
theorem result_eq (x0 : (⟨S64x2048x13, .f32⟩ : BufTy).Contents (Elt Ideal)) (x1 : (⟨S13x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x80, .f32⟩ : BufTy).Contents (Elt Ideal)) (x8 : (⟨S80, .f32⟩ : BufTy).Contents (Elt Ideal)) :
    val_main_v18 (F := Ideal) x0 x1 x2 x3 x4 x5 x6 x7 x8 = Cert.Mlp.result x0 x1 x2 x3 x4 x5 x6 x7 x8 := by
  funext i
  obtain ⟨s, t, j, rfl⟩ : ∃ (s : Fin 64) (t : Fin 2048) (j : Fin 80), i = ix3 s t j := ⟨i 0, i 1, i 2, eq_ix3 i⟩
  have h := congrFun (layer4 x0 x1 x2 x3 x4 x5 x6 x7 x8 s t) j
  rw [layer3, layer2, layer1] at h
  exact h

end Cert.Mlp.Ref

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.KernelRow.lean ====
/-
  What the kernel's body stores, read at a row.

  The body loads a block of 4096 rows of the input and the whole of every weight matrix and bias, and stores one
  value: three times a product into a zero accumulator plus a bias row broadcast down the block, rectified against
  a broadcast zero, then a fourth product plus bias. The changes of float format in between are the identity at the
  ideal instance, and a shape cast to the same shape is the identity. Read at row `p` and column `j`, each
  product is the sum over the contracted coordinate of the left operand along row `p` times the matrix along
  column `j`, and the broadcast bias is the bias at `(0, j)`. So row `p` of the stored block is the
  specification's network of row `p` of the loaded input block, with each [1, N] bias read as a vector.
-/
import proofs.«136486_j16054587752846_1_alg».proof.Proof.Gen.KernelIdeal.Skeleton
import proofs.«136486_j16054587752846_1_alg».proof.Proof.Spec
import proofs.«136486_j16054587752846_1_alg».proof.Proof.LibDot2
import Idealize.ShloMosaic.Lib.Pipeline.Value
import Idealize.ShloMosaic.Lib.ValueIdx
import Idealize.ShloMosaic.PureOps.Ideal.Laws

noncomputable section

namespace Cert.Mlp.Kern

open Idealize.ShloMosaic Idealize.ShloMosaic.TcCoe Idealize.ShloMosaic.ValueIdx
open Cert.KernelIdeal Cert.KernelIdeal.Gen

/-- A bias kept as a [1, N] array, read as a vector of length N. -/
def brow {N : Nat} (b : (⟨2, ![1, N]⟩ : Shape).Idx → EReal) : (⟨1, ![N]⟩ : Shape).Idx → EReal :=
  fun i => b (ix2 0 (i 0))

/-! ## One affine layer of the body, at `(p, j)` -/

/-- A product into the zero accumulator plus a [1, N] bias broadcast down the rows, read at `(p, j)`: the affine layer
    of row `p` of the left operand. The dimension numbers enter through their four coordinate facts. -/
theorem affine_ix2 {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (b : FVec Ideal ⟨2, ![1, N]⟩ .f32)
    (hb : (⟨2, ![1, N]⟩ : Shape).Broadcasts ⟨2, ![M, N]⟩) (p : Fin M) (j : Fin N) :
    addf (matmul D none l r (constant (F := Ideal) ⟨2, ![M, N]⟩ .f32 0x00000000#32)) (broadcastTo ⟨2, ![M, N]⟩ b hb) (ix2 p j)
      = affine (fun a => l (ix2 p a)) r (brow b) j := by
  rw [addf_apply, Cert.Lib.Dot2.matmul_zero_ix2 D none hr hs hl0 hl1 hr0 hr1 l r p j,
    broadcastTo_apply b hb (ix2 p j) (ix2 0 j) (fun a => match a with
      | ⟨0, _⟩ => by show (0 : Nat) = if (1 : Nat) = 1 then 0 else _; rw [if_pos rfl]
      | ⟨1, _⟩ => by
          show j.val = if N = 1 then 0 else j.val
          have := j.isLt
          split <;> omega)]
  rfl

/-! ## The coordinate facts of the body's three dimension-number records -/

theorem d1_l0 (i : S4096x256.Idx) (q : dot_S4096x13_S13x256_S4096x256_1_0_0_1_n_n.contr.Idx) :
    (dot_S4096x13_S13x256_S4096x256_1_0_0_1_n_n.lhsIdx i q 0).val = (i 0).val := by
  unfold DotDims.lhsIdx
  rw [dif_neg (show ¬(0 : Fin S4096x13.rank) ∈ dot_S4096x13_S13x256_S4096x256_1_0_0_1_n_n.lhsBatch by decide), dif_pos (show (0 : Fin S4096x13.rank) ∈ dot_S4096x13_S13x256_S4096x256_1_0_0_1_n_n.lhsNonContracting by decide)]
  rfl
theorem d1_l1 (i : S4096x256.Idx) (q : dot_S4096x13_S13x256_S4096x256_1_0_0_1_n_n.contr.Idx) :
    (dot_S4096x13_S13x256_S4096x256_1_0_0_1_n_n.lhsIdx i q 1).val = (q ⟨0, by decide⟩).val :=
  dot_S4096x13_S13x256_S4096x256_1_0_0_1_n_n.lhsIdx_val_of_single rfl i q
theorem d1_r0 (i : S4096x256.Idx) (q : dot_S4096x13_S13x256_S4096x256_1_0_0_1_n_n.contr.Idx) :
    (dot_S4096x13_S13x256_S4096x256_1_0_0_1_n_n.rhsIdx i q 0).val = (q ⟨0, by decide⟩).val :=
  dot_S4096x13_S13x256_S4096x256_1_0_0_1_n_n.rhsIdx_val_of_single rfl i q
theorem d1_r1 (i : S4096x256.Idx) (q : dot_S4096x13_S13x256_S4096x256_1_0_0_1_n_n.contr.Idx) :
    (dot_S4096x13_S13x256_S4096x256_1_0_0_1_n_n.rhsIdx i q 1).val = (i 1).val := by
  unfold DotDims.rhsIdx
  rw [dif_neg (show ¬(1 : Fin S13x256.rank) ∈ dot_S4096x13_S13x256_S4096x256_1_0_0_1_n_n.rhsBatch by decide), dif_pos (show (1 : Fin S13x256.rank) ∈ dot_S4096x13_S13x256_S4096x256_1_0_0_1_n_n.rhsNonContracting by decide)]
  rfl

theorem d2_l0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem d2_l1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem d2_r0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem d2_r1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

theorem d3_l0 (i : S4096x80.Idx) (q : dot_S4096x256_S256x80_S4096x80_1_0_0_1_n_n.contr.Idx) :
    (dot_S4096x256_S256x80_S4096x80_1_0_0_1_n_n.lhsIdx i q 0).val = (i 0).val := by
  unfold DotDims.lhsIdx
  rw [dif_neg (show ¬(0 : Fin S4096x256.rank) ∈ dot_S4096x256_S256x80_S4096x80_1_0_0_1_n_n.lhsBatch by decide), dif_pos (show (0 : Fin S4096x256.rank) ∈ dot_S4096x256_S256x80_S4096x80_1_0_0_1_n_n.lhsNonContracting by decide)]
  rfl
theorem d3_l1 (i : S4096x80.Idx) (q : dot_S4096x256_S256x80_S4096x80_1_0_0_1_n_n.contr.Idx) :
    (dot_S4096x256_S256x80_S4096x80_1_0_0_1_n_n.lhsIdx i q 1).val = (q ⟨0, by decide⟩).val :=
  dot_S4096x256_S256x80_S4096x80_1_0_0_1_n_n.lhsIdx_val_of_single rfl i q
theorem d3_r0 (i : S4096x80.Idx) (q : dot_S4096x256_S256x80_S4096x80_1_0_0_1_n_n.contr.Idx) :
    (dot_S4096x256_S256x80_S4096x80_1_0_0_1_n_n.rhsIdx i q 0).val = (q ⟨0, by decide⟩).val :=
  dot_S4096x256_S256x80_S4096x80_1_0_0_1_n_n.rhsIdx_val_of_single rfl i q
theorem d3_r1 (i : S4096x80.Idx) (q : dot_S4096x256_S256x80_S4096x80_1_0_0_1_n_n.contr.Idx) :
    (dot_S4096x256_S256x80_S4096x80_1_0_0_1_n_n.rhsIdx i q 1).val = (i 1).val := by
  unfold DotDims.rhsIdx
  rw [dif_neg (show ¬(1 : Fin S256x80.rank) ∈ dot_S4096x256_S256x80_S4096x80_1_0_0_1_n_n.rhsBatch by decide), dif_pos (show (1 : Fin S256x80.rank) ∈ dot_S4096x256_S256x80_S4096x80_1_0_0_1_n_n.rhsNonContracting by decide)]
  rfl

/-! ## The body's value, layer by layer -/

/-- The first hidden layer as the body computes it from the loaded input block, weights and bias. -/
def hidden1 (x : Vec Ideal S4096x13 .f32) (W : Vec Ideal S13x256 .f32) (b : Vec Ideal S1x256 .f32) : FVec Ideal S4096x256 .f32 :=
  maximumf (addf (matmul dot_S4096x13_S13x256_S4096x256_1_0_0_1_n_n none
      (truncf .bf16 (shapeCast S4096x13 x shapeCasts_S4096x13_S4096x13) bitsLt_bf16_f32) (truncf .bf16 W bitsLt_bf16_f32)
      (constant S4096x256 .f32 0x00000000#32))
    (broadcastTo S4096x256 (shapeCast S1x256 b shapeCasts_S1x256_S1x256) broadcasts_S1x256_S4096x256))
    (broadcast S4096x256 (Scalar.ofBits .f32 0x00000000#32))

/-- A later hidden layer, from the activations before it. -/
def hidden (h : FVec Ideal S4096x256 .f32) (W : Vec Ideal S256x256 .f32) (b : Vec Ideal S1x256 .f32) : FVec Ideal S4096x256 .f32 :=
  maximumf (addf (matmul dot_S4096x256_S256x256_S4096x256_1_0_0_1_n_n none
      (truncf .bf16 h bitsLt_bf16_f32) (truncf .bf16 W bitsLt_bf16_f32)
      (constant S4096x256 .f32 0x00000000#32))
    (broadcastTo S4096x256 (shapeCast S1x256 b shapeCasts_S1x256_S1x256) broadcasts_S1x256_S4096x256))
    (broadcast S4096x256 (Scalar.ofBits .f32 0x00000000#32))

/-- The output layer: affine, not rectified. -/
def output (h : FVec Ideal S4096x256 .f32) (W : Vec Ideal S256x80 .f32) (b : Vec Ideal S1x80 .f32) : FVec Ideal S4096x80 .f32 :=
  addf (matmul dot_S4096x256_S256x80_S4096x80_1_0_0_1_n_n none
      (truncf .bf16 h bitsLt_bf16_f32) (truncf .bf16 W bitsLt_bf16_f32)
      (constant S4096x80 .f32 0x00000000#32))
    (broadcastTo S4096x80 (shapeCast S1x80 b shapeCasts_S1x80_S1x80) broadcasts_S1x80_S4096x80)

/-- The stored value is the four layers composed: the body's text with its intermediate names substituted. -/
theorem stored_eq (x0 : Vec Ideal S4096x13 .f32) (x1 : Vec Ideal S13x256 .f32) (x2 : Vec Ideal S1x256 .f32)
    (x3 : Vec Ideal S256x256 .f32) (x4 : Vec Ideal S1x256 .f32) (x5 : Vec Ideal S256x256 .f32) (x6 : Vec Ideal S1x256 .f32)
    (x7 : Vec Ideal S256x80 .f32) (x8 : Vec Ideal S1x80 .f32) :
    k0_pay1 (F := Ideal) (k0_pay2 (F := Ideal) x0 x1 x2 x3 x4 x5 x6 x7) x8
      = output (hidden (hidden (hidden1 x0 x1 x2) x3 x4) x5 x6) x7 x8 := rfl

theorem hidden1_row (x : Vec Ideal S4096x13 .f32) (W : Vec Ideal S13x256 .f32) (b : Vec Ideal S1x256 .f32) (p : Fin 4096) :
    (fun j : Fin 256 => hidden1 x W b (ix2 p j)) = rect (affine (fun a => x (ix2 p a)) W (brow b)) := by
  funext j
  unfold hidden1
  rw [shapeCast_self, shapeCast_self, maximumf_apply,
    affine_ix2 dot_S4096x13_S13x256_S4096x256_1_0_0_1_n_n rfl rfl d1_l0 d1_l1 d1_r0 d1_r1]
  rfl

theorem hidden_row (h : FVec Ideal S4096x256 .f32) (W : Vec Ideal S256x256 .f32) (b : Vec Ideal S1x256 .f32) (p : Fin 4096) :
    (fun j : Fin 256 => hidden h W b (ix2 p j)) = rect (affine (fun a => h (ix2 p a)) W (brow b)) := by
  funext j
  unfold hidden
  rw [shapeCast_self, maximumf_apply,
    affine_ix2 dot_S4096x256_S256x256_S4096x256_1_0_0_1_n_n rfl rfl d2_l0 d2_l1 d2_r0 d2_r1]
  rfl

theorem output_row (h : FVec Ideal S4096x256 .f32) (W : Vec Ideal S256x80 .f32) (b : Vec Ideal S1x80 .f32) (p : Fin 4096) :
    (fun j : Fin 80 => output h W b (ix2 p j)) = affine (fun a => h (ix2 p a)) W (brow b) := by
  funext j
  unfold output
  rw [shapeCast_self, affine_ix2 dot_S4096x256_S256x80_S4096x80_1_0_0_1_n_n rfl rfl d3_l0 d3_l1 d3_r0 d3_r1]
  rfl

/-- Row `p` of the stored block is the network of row `p` of the loaded input block. -/
theorem stored_row (x0 : Vec Ideal S4096x13 .f32) (x1 : Vec Ideal S13x256 .f32) (x2 : Vec Ideal S1x256 .f32)
    (x3 : Vec Ideal S256x256 .f32) (x4 : Vec Ideal S1x256 .f32) (x5 : Vec Ideal S256x256 .f32) (x6 : Vec Ideal S1x256 .f32)
    (x7 : Vec Ideal S256x80 .f32) (x8 : Vec Ideal S1x80 .f32) (p : Fin 4096) (j : Fin 80) :
    k0_pay1 (F := Ideal) (k0_pay2 (F := Ideal) x0 x1 x2 x3 x4 x5 x6 x7) x8 (ix2 p j)
      = net (fun a => x0 (ix2 p a)) x1 (brow x2) x3 (brow x4) x5 (brow x6) x7 (brow x8) j := by
  have e1 := hidden1_row x0 x1 x2 p
  have e2 := hidden_row (hidden1 x0 x1 x2) x3 x4 p
  have e3 := hidden_row (hidden (hidden1 x0 x1 x2) x3 x4) x5 x6 p
  have e4 := output_row (hidden (hidden (hidden1 x0 x1 x2) x3 x4) x5 x6) x7 x8 p
  rw [e1] at e2
  rw [e2] at e3
  rw [e3] at e4
  rw [stored_eq]
  exact congrFun e4 j

end Cert.Mlp.Kern

end
-- ==== Proof.KernelArray.lean ====
/-
  The array the region leaves.

  The region runs the body at 32 grid points. At point `t` the input window holds rows `4096 t … 4096 t + 4095` of the
  flattened input, every weight and bias window holds its whole array, and the output window's block is rows
  `4096 t … 4096 t + 4095` of the [131072, 80] result array. Row `p` of the stored block is the network of row `p`
  of the input block, so what point `t` writes back is block `t` of ONE function of the arrays as the region finds
  them: at `(r, j)`, the network of row `r` of the flattened input, at `j`. The 32 blocks tile the rows, so the
  array ends holding that function everywhere.
-/
import proofs.«136486_j16054587752846_1_alg».proof.Proof.Gen.KernelIdeal.Frame
import proofs.«136486_j16054587752846_1_alg».proof.Proof.KernelRow
import Idealize.ShloMosaic.Lib.Pipeline.Value

set_option maxRecDepth 16384

noncomputable section

namespace Cert.Mlp.Kern

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ)

/-! ## The arrays as the region finds them, by their literal types -/

abbrev flatX (c : Dev nD) : Vec Ideal S131072x13 .f32 := V m c main_v0
abbrev w1 (c : Dev nD) : Vec Ideal S13x256 .f32 := V m c main_arg1
abbrev c1 (c : Dev nD) : Vec Ideal S1x256 .f32 := V m c main_v1
abbrev w2 (c : Dev nD) : Vec Ideal S256x256 .f32 := V m c main_arg3
abbrev c2 (c : Dev nD) : Vec Ideal S1x256 .f32 := V m c main_v2
abbrev w3 (c : Dev nD) : Vec Ideal S256x256 .f32 := V m c main_arg5
abbrev c3 (c : Dev nD) : Vec Ideal S1x256 .f32 := V m c main_v3
abbrev w4 (c : Dev nD) : Vec Ideal S256x80 .f32 := V m c main_arg7
abbrev c4 (c : Dev nD) : Vec Ideal S1x80 .f32 := V m c main_v4

/-- The result array of the region, as one function of the arrays it finds: the network of each row. -/
def flatResult (c : Dev nD) : Vec Ideal S131072x80 .f32 := fun i =>
  net (fun a => flatX m c (ix2 (i 0) a)) (w1 m c) (brow (c1 m c)) (w2 m c) (brow (c2 m c)) (w3 m c) (brow (c3 m c))
    (w4 m c) (brow (c4 m c)) (i 1)

/-! ## The printed index maps, decided over the 32 points -/

theorem hz : (![0, 0] : Fin 2 → Nat) = fun _ => 0 := funext fun a => by fin_cases a <;> rfl

/-- The input and output windows move together down the rows, one block a point; every other window stays at its
    one block. -/
theorem idx_facts : ∀ t : Fin cfg0.N,
    win0_0.index t (0 : Fin 2) = win0_9.index t (0 : Fin 2) ∧ win0_0.index t (1 : Fin 2) = 0
    ∧ win0_9.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Every one of the 32 row blocks is some point's. -/
theorem idx_onto : ∀ q : Fin 32, ∃ t : Fin cfg0.N, win0_9.index t = ![q.val, 0] :=
  (by decide +kernel : ∀ q : Fin 32, ∃ t : Fin grid0.N, win0_9.index t = ![q.val, 0])

/-! ## The blocks the body loads -/

/-- A window whose block is its whole array holds that array at every point: the weights and the biases. -/
theorem blk_w1 (c : Dev nD) (t : Fin cfg0.N) : (iblk m c 1 t : Vec Ideal S13x256 .f32) = w1 m c := by
  obtain ⟨-, -, -, e0, e1, -, -, -, -, -, -, -, -, -, -, -, -, -, -⟩ := idx_facts t
  funext y
  show V m c main_arg1 (((cfg0.win 1).blk t).view.emb y) = V m c main_arg1 y
  refine congrArg (V m c main_arg1) (funext fun a => Fin.ext ?_)
  match a with
  | ⟨0, _⟩ => show win0_1.index t (0 : Fin 2) * 13 + 1 * (y 0).val = (y 0).val; omega
  | ⟨1, _⟩ => show win0_1.index t (1 : Fin 2) * 256 + 1 * (y 1).val = (y 1).val; omega

theorem blk_c1 (c : Dev nD) (t : Fin cfg0.N) : (iblk m c 2 t : Vec Ideal S1x256 .f32) = c1 m c := by
  obtain ⟨-, -, -, -, -, e0, e1, -, -, -, -, -, -, -, -, -, -, -, -⟩ := idx_facts t
  funext y
  show V m c main_v1 (((cfg0.win 2).blk t).view.emb y) = V m c main_v1 y
  refine congrArg (V m c main_v1) (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

theorem blk_w2 (c : Dev nD) (t : Fin cfg0.N) : (iblk m c 3 t : Vec Ideal S256x256 .f32) = w2 m c := by
  obtain ⟨-, -, -, -, -, -, -, e0, e1, -, -, -, -, -, -, -, -, -, -⟩ := idx_facts t
  funext y
  show V m c main_arg3 (((cfg0.win 3).blk t).view.emb y) = V m c main_arg3 y
  refine congrArg (V m c main_arg3) (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega

theorem blk_c2 (c : Dev nD) (t : Fin cfg0.N) : (iblk m c 4 t : Vec Ideal S1x256 .f32) = c2 m c := by
  obtain ⟨-, -, -, -, -, -, -, -, -, e0, e1, -, -, -, -, -, -, -, -⟩ := idx_facts t
  funext y
  show V m c main_v2 (((cfg0.win 4).blk t).view.emb y) = V m c main_v2 y
  refine congrArg (V m c main_v2) (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

theorem blk_w3 (c : Dev nD) (t : Fin cfg0.N) : (iblk m c 5 t : Vec Ideal S256x256 .f32) = w3 m c := by
  obtain ⟨-, -, -, -, -, -, -, -, -, -, -, e0, e1, -, -, -, -, -, -⟩ := idx_facts t
  funext y
  show V m c main_arg5 (((cfg0.win 5).blk t).view.emb y) = V m c main_arg5 y
  refine congrArg (V m c main_arg5) (funext fun a => Fin.ext ?_)
  match a with
  | ⟨0, _⟩ => show win0_5.index t (0 : Fin 2) * 256 + 1 * (y 0).val = (y 0).val; omega
  | ⟨1, _⟩ => show win0_5.index t (1 : Fin 2) * 256 + 1 * (y 1).val = (y 1).val; omega

theorem blk_c3 (c : Dev nD) (t : Fin cfg0.N) : (iblk m c 6 t : Vec Ideal S1x256 .f32) = c3 m c := by
  obtain ⟨-, -, -, -, -, -, -, -, -, -, -, -, -, e0, e1, -, -, -, -⟩ := idx_facts t
  funext y
  show V m c main_v3 (((cfg0.win 6).blk t).view.emb y) = V m c main_v3 y
  refine congrArg (V m c main_v3) (funext fun a => Fin.ext ?_)
  match a with
  | ⟨0, _⟩ => show win0_6.index t (0 : Fin 2) * 1 + 1 * (y 0).val = (y 0).val; omega
  | ⟨1, _⟩ => show win0_6.index t (1 : Fin 2) * 256 + 1 * (y 1).val = (y 1).val; omega

theorem blk_w4 (c : Dev nD) (t : Fin cfg0.N) : (iblk m c 7 t : Vec Ideal S256x80 .f32) = w4 m c := by
  obtain ⟨-, -, -, -, -, -, -, -, -, -, -, -, -, -, -, e0, e1, -, -⟩ := idx_facts t
  funext y
  show V m c main_arg7 (((cfg0.win 7).blk t).view.emb y) = V m c main_arg7 y
  refine congrArg (V m c main_arg7) (funext fun a => Fin.ext ?_)
  match a with
  | ⟨0, _⟩ => show win0_7.index t (0 : Fin 2) * 256 + 1 * (y 0).val = (y 0).val; omega
  | ⟨1, _⟩ => show win0_7.index t (1 : Fin 2) * 80 + 1 * (y 1).val = (y 1).val; omega

theorem blk_c4 (c : Dev nD) (t : Fin cfg0.N) : (iblk m c 8 t : Vec Ideal S1x80 .f32) = c4 m c := by
  obtain ⟨-, -, -, -, -, -, -, -, -, -, -, -, -, -, -, -, -, e0, e1⟩ := idx_facts t
  funext y
  show V m c main_v4 (((cfg0.win 8).blk t).view.emb y) = V m c main_v4 y
  refine congrArg (V m c main_v4) (funext fun a => Fin.ext ?_)
  match a with
  | ⟨0, _⟩ => show win0_8.index t (0 : Fin 2) * 1 + 1 * (y 0).val = (y 0).val; omega
  | ⟨1, _⟩ => show win0_8.index t (1 : Fin 2) * 80 + 1 * (y 1).val = (y 1).val; omega

/-- The input window's block at a point is the rows of the flattened input that the output block's rows name. -/
theorem blk_x (c : Dev nD) (t : Fin cfg0.N) (p : Fin 4096) (j : Fin 80) :
    (fun a : Fin 13 => (iblk m c 0 t : Vec Ideal S4096x13 .f32) (ix2 p a))
      = fun a => flatX m c (ix2 ((((cfg0.win 9).blk t).view.emb (ix2 p j)) 0) a) := by
  obtain ⟨e00, e01, -⟩ := idx_facts t
  funext a
  show V m c main_v0 (((cfg0.win 0).blk t).view.emb (ix2 p a)) = V m c main_v0 _
  refine congrArg (V m c main_v0) (funext fun d => Fin.ext ?_)
  match d with
  | ⟨0, _⟩ => show win0_0.index t (0 : Fin 2) * 4096 + 1 * p.val = win0_9.index t (0 : Fin 2) * 4096 + 1 * p.val; omega
  | ⟨1, _⟩ => show win0_0.index t (1 : Fin 2) * 13 + 1 * a.val = a.val; omega

/-! ## What a point writes back, and the array after the region -/

/-- WHAT POINT `t` WRITES BACK is block `t` of `flatResult`. -/
theorem flushed_eq (c : Dev nD) (t : Fin cfg0.N) :
    (dats m 0 c).flushed 9 t = ((cfg0.win 9).blk t).view.read (Elt Ideal) (flatResult m c) := by
  show (cfg0.win 9).cut (grid0.coords t) ((dats m 0 c).after 9 t) = _
  rw [after0_9]
  unfold out0_9
  rw [View.canon_unit_zero hz]
  simp only [View.ld_unit_zero (S := S4096x13) hz, View.ld_unit_zero (S := S13x256) hz, View.ld_unit_zero (S := S1x256) hz,
    View.ld_unit_zero (S := S256x256) hz, View.ld_unit_zero (S := S256x80) hz, View.ld_unit_zero (S := S1x80) hz]
  funext (y : S4096x80.Idx)
  obtain ⟨p, j, rfl⟩ : ∃ (p : Fin 4096) (j : Fin 80), y = ix2 p j := ⟨y 0, y 1, eq_ix2 y⟩
  show k0_pay1 (F := Ideal) (k0_pay2 (F := Ideal) (iblk m c 0 t) (iblk m c 1 t) (iblk m c 2 t) (iblk m c 3 t) (iblk m c 4 t)
      (iblk m c 5 t) (iblk m c 6 t) (iblk m c 7 t)) (iblk m c 8 t) (ix2 p j)
    = flatResult m c (((cfg0.win 9).blk t).view.emb (ix2 p j))
  refine (stored_row (iblk m c 0 t) (iblk m c 1 t) (iblk m c 2 t) (iblk m c 3 t) (iblk m c 4 t)
      (iblk m c 5 t) (iblk m c 6 t) (iblk m c 7 t) (iblk m c 8 t) p j).trans ?_
  rw [blk_w1 m c t, blk_c1 m c t, blk_w2 m c t, blk_c2 m c t, blk_w3 m c t, blk_c3 m c t, blk_w4 m c t, blk_c4 m c t,
    blk_x m c t p j]
  obtain ⟨-, -, e91, -⟩ := idx_facts t
  have hcol : j = (((cfg0.win 9).blk t).view.emb (ix2 p j)) 1 :=
    Fin.ext (by show j.val = win0_9.index t (1 : Fin 2) * 80 + 1 * j.val; omega)
  unfold flatResult
  exact congrArg _ hcol

/-- An index of the result array is in point `t`'s block iff each coordinate is in the block's range on its axis. -/
theorem mem_blk (t : Fin cfg0.N) (i : S131072x80.Idx) :
    i ∈ ((cfg0.win 9).blk t).view.set ↔ ∀ a : Fin 2, win0_9.index t a * S4096x80.size a ≤ (i a).val
      ∧ (i a).val < win0_9.index t a * S4096x80.size a + S4096x80.size a := by
  show i ∈ ((View.whole main_v5).slice (win0_9.rect t)).set ↔ _
  rw [View.set_slice_whole, Rect.mem_set_unit]
  exact Iff.rfl

/-- The 32 blocks tile the rows: row `r` is in the block of the point whose block index is `r / 4096`. -/
theorem cover (i : S131072x80.Idx) :
    ∃ t : Fin cfg0.N, (cfg0.win 9).flush t = true ∧ i ∈ ((cfg0.win 9).blk t).view.set := by
  have hi0 : (i 0).val < 131072 := (i 0).isLt
  have hi1 : (i 1).val < 80 := (i 1).isLt
  obtain ⟨t, ht⟩ := idx_onto ⟨(i 0).val / 4096, by omega⟩
  have q0 : win0_9.index t (0 : Fin 2) = (i 0).val / 4096 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 4096 ≤ (i 0).val ∧ (i 0).val < win0_9.index t (0 : Fin 2) * 4096 + 4096; omega
  | ⟨1, _⟩ => show win0_9.index t (1 : Fin 2) * 80 ≤ (i 1).val ∧ (i 1).val < win0_9.index t (1 : Fin 2) * 80 + 80; omega

/-- THE ARRAY AFTER THE REGION: the network of every row of the flattened input. -/
theorem region_result (c : Dev nD) : (dats m 0 c).arrAt 9 cfg0.N = flatResult m c :=
  (dats m 0 c).arrAt_eq_of_cover 9 (flatResult m c) (fun t _ => flushed_eq m c t) cover

end Cert.Mlp.Kern

end
-- ==== Proof.Flatten.lean ====
/-
  Merging and splitting the two leading axes of an array.

  A reshape keeps the row-major position of every element. So a [a, b, c] array reshaped to [n, c] (with n = a · b)
  holds at `(s · b + t, k)` what the operand holds at `(s, t, k)`, and a [n, c] array reshaped to [a, b, c] holds at
  `(s, t, k)` what the operand holds at `(s · b + t, k)`: both positions are `(s · b + t) · c + k`.
-/
import Idealize.ShloMosaic.Lib.Pipeline.Value
import Idealize.ShloMosaic.Lib.ValueIdx

noncomputable section

namespace Cert.Mlp

open Idealize.ShloMosaic Idealize.ShloMosaic.ValueIdx

variable {α : Type}

/-- The two leading axes merged: read at row `s · b + t`. -/
theorem shapeCast_merge_apply {a b c n : Nat} (x : (⟨3, ![a, b, c]⟩ : Shape).Idx → α)
    (h : (⟨3, ![a, b, c]⟩ : Shape).ShapeCasts ⟨2, ![n, c]⟩) (s : Fin a) (t : Fin b) (k : Fin c)
    (hlt : s.val * b + t.val < n) :
    shapeCast ⟨2, ![n, c]⟩ x h (ix2 ⟨s.val * b + t.val, hlt⟩ k) = x (ix3 s t k) :=
  shapeCast_apply x h _ _ (by
    rw [Shape.rowMajor_val_three, Shape.rowMajor_val_two]
    rfl)

/-- The leading axis split in two: read at `(s, t)`, the operand's row `s · b + t`. -/
theorem shapeCast_split_apply {a b c n : Nat} (y : (⟨2, ![n, c]⟩ : Shape).Idx → α)
    (h : (⟨2, ![n, c]⟩ : Shape).ShapeCasts ⟨3, ![a, b, c]⟩) (s : Fin a) (t : Fin b) (k : Fin c)
    (hlt : s.val * b + t.val < n) :
    shapeCast ⟨3, ![a, b, c]⟩ y h (ix3 s t k) = y (ix2 ⟨s.val * b + t.val, hlt⟩ k) :=
  shapeCast_apply y h _ _ (by
    rw [Shape.rowMajor_val_three, Shape.rowMajor_val_two]
    rfl)

end Cert.Mlp

end
-- ==== Proof.KernelRun.lean ====
/-
  The kernel program's run, read.

  Around the region the program only reshapes: before it, the input's two leading axes are merged ([64, 2048, 13]
  to [131072, 13]) and each bias gets a leading unit axis; after it, the result's leading axis is split back
  ([131072, 80] to [64, 2048, 80]). The weights reach the region as launched. Row `s · 2048 + t` of the flattened
  input is row `(s, t)` of the input, a bias with a unit axis read as a vector is the bias, and the result at
  `(s, t, j)` is the region's array at `(s · 2048 + t, j)`: the specification's `result` of the arguments.
-/
import proofs.«136486_j16054587752846_1_alg».proof.Proof.Gen.KernelIdeal.Frame
import proofs.«136486_j16054587752846_1_alg».proof.Proof.KernelArray
import proofs.«136486_j16054587752846_1_alg».proof.Proof.Flatten
import Idealize.ShloMosaic.Lib.StableHlo.Run
import Idealize.ShloMosaic.Lib.ValueLayout

set_option maxRecDepth 16384

noncomputable section

namespace Cert.Mlp.Kern

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-! ## The reshapes before the region -/

theorem flatX_eq (c : Dev nD) :
    flatX m c = shapeCast S131072x13 (m ((c : Thread nD τ).loc main_arg0)) shapeCasts_S64x2048x13_S131072x13 := by
  show StableHlo.after hostOps0 (fun b => m (c, b)) (Proc.devRef .tc main_v0) = _
  after_results
  rfl
theorem c1_eq (c : Dev nD) : c1 m c = shapeCast S1x256 (m ((c : Thread nD τ).loc main_arg2)) shapeCasts_S256_S1x256 := by
  show StableHlo.after hostOps0 (fun b => m (c, b)) (Proc.devRef .tc main_v1) = _
  after_results
  rfl
theorem c2_eq (c : Dev nD) : c2 m c = shapeCast S1x256 (m ((c : Thread nD τ).loc main_arg4)) shapeCasts_S256_S1x256 := by
  show StableHlo.after hostOps0 (fun b => m (c, b)) (Proc.devRef .tc main_v2) = _
  after_results
  rfl
theorem c3_eq (c : Dev nD) : c3 m c = shapeCast S1x256 (m ((c : Thread nD τ).loc main_arg6)) shapeCasts_S256_S1x256 := by
  show StableHlo.after hostOps0 (fun b => m (c, b)) (Proc.devRef .tc main_v3) = _
  after_results
  rfl
theorem c4_eq (c : Dev nD) : c4 m c = shapeCast S1x80 (m ((c : Thread nD τ).loc main_arg8)) shapeCasts_S80_S1x80 := by
  show StableHlo.after hostOps0 (fun b => m (c, b)) (Proc.devRef .tc main_v4) = _
  after_results
  rfl

/-- A vector given a leading unit axis and read back as a vector is itself. -/
theorem brow_cast {N : Nat} (b : (⟨1, ![N]⟩ : Shape).Idx → EReal)
    (h : (⟨1, ![N]⟩ : Shape).ShapeCasts ⟨2, ![1, N]⟩) : brow (shapeCast ⟨2, ![1, N]⟩ b h) = b :=
  funext fun i => by
    unfold brow
    rw [shapeCast_a_1a_apply b h 0 (i 0)]
    exact congrArg b (eq_ix1 i).symm

/-! ## The reshape after the region -/

/-- The program's result buffer after the run: the region's array with its leading axis split. -/
theorem tail_eq (c : Dev nD) : Pipeline.afterTail₀ cfgs (dats m) 0 (V0 m) [hostOps1] c main_v6
    = shapeCast S64x2048x80 (flatResult m c) shapeCasts_S131072x80_S64x2048x80 := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v5)
      = flatResult m c :=
    (Pipeline.withArrays_arr spec0 launch0.win.arr_inj c _ _ 9).trans (region_result m c)
  rw [hw]
  rfl

/-- That array is the specification's `result` of the arguments. -/
theorem split_result (c : Dev nD) :
    shapeCast S64x2048x80 (flatResult m c) shapeCasts_S131072x80_S64x2048x80
      = Cert.Mlp.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  obtain ⟨s, t, j, rfl⟩ : ∃ (s : Fin 64) (t : Fin 2048) (j : Fin 80), i = ix3 s t j := ⟨i 0, i 1, i 2, eq_ix3 i⟩
  have hlt : s.val * 2048 + t.val < 131072 := by have := s.isLt; have := t.isLt; omega
  rw [shapeCast_split_apply (flatResult m c) shapeCasts_S131072x80_S64x2048x80 s t j hlt]
  have hx : (fun a : Fin 13 => flatX m c (ix2 (⟨s.val * 2048 + t.val, hlt⟩ : Fin 131072) a))
      = fun a => (m ((c : Thread nD τ).loc main_arg0)) (ix3 s t a) := funext fun a => by
    rw [flatX_eq]
    exact shapeCast_merge_apply (m ((c : Thread nD τ).loc main_arg0)) shapeCasts_S64x2048x13_S131072x13 s t a hlt
  have h1 : brow (c1 m c) = (m ((c : Thread nD τ).loc main_arg2)) := by rw [c1_eq]; exact brow_cast _ _
  have h2 : brow (c2 m c) = (m ((c : Thread nD τ).loc main_arg4)) := by rw [c2_eq]; exact brow_cast _ _
  have h3 : brow (c3 m c) = (m ((c : Thread nD τ).loc main_arg6)) := by rw [c3_eq]; exact brow_cast _ _
  have h4 : brow (c4 m c) = (m ((c : Thread nD τ).loc main_arg8)) := by rw [c4_eq]; exact brow_cast _ _
  have g1 : w1 m c = (m ((c : Thread nD τ).loc main_arg1)) := V_main_arg1 m c
  have g2 : w2 m c = (m ((c : Thread nD τ).loc main_arg3)) := V_main_arg3 m c
  have g3 : w3 m c = (m ((c : Thread nD τ).loc main_arg5)) := V_main_arg5 m c
  have g4 : w4 m c = (m ((c : Thread nD τ).loc main_arg7)) := V_main_arg7 m c
  show net (fun a : Fin 13 => flatX m c (ix2 (⟨s.val * 2048 + t.val, hlt⟩ : Fin 131072) a)) (w1 m c) (brow (c1 m c)) (w2 m c)
      (brow (c2 m c)) (w3 m c) (brow (c3 m c)) (w4 m c) (brow (c4 m c)) j = _
  rw [hx, h1, h2, h3, h4, g1, g2, g3, g4]
  rfl

/-! ## The run -/

/-- Every weakly fair execution of the kernel program terminates with its result buffer at the specification's
    `result` of the arguments, and the arguments as launched. -/
theorem run : θ_run defs (onTc (τ := τ) (main (F := Ideal))) ⟨m, fun _ => 0, ρ⟩ (fun r => ∀ c : Dev nD,
      r.2.mem ((c.tc : Thread nD τ).loc main_v6)
        = Cert.Mlp.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(((h c).2 main_v6 (Pipeline.mem_restRefs_of main_v6 (by decide) (by decide))).trans (tail_eq m c)).trans (split_result m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c))⟩)
    (run_main m ρ)

end Cert.Mlp.Kern

end
-- ==== Proof.lean ====
/-
  A four-layer perceptron on every row of a [64, 2048, 13] batch, as a tiled kernel and as a chain of contractions:
  the two agree over the extended reals.

  Both programs apply, to each row `x` of 13 features, `x ↦ W4ᵀ relu(W3ᵀ relu(W2ᵀ relu(W1ᵀ x + b1) + b2) + b3) + b4`
  with `relu = max · 0`. The kernel flattens the batch to 131072 rows, runs 32 grid points of 4096 rows each with the
  weights resident, rounds its operands to a narrower float format before each product (the identity on the extended
  reals), and splits the rows back; the reference contracts the batch's last axis directly. Each entry of the result is
  the same finite sums, products and maxima of the same entries of the arguments in the same order, so no algebraic
  law is needed and the precondition is never opened.

  Spec.lean states that function; RefSide.lean reads the reference's operations as it; KernelRow.lean reads the
  kernel body's stored value, row by row, as it; KernelArray.lean puts the 32 blocks together; KernelRun.lean reads the
  reshapes around the region. The two word-level and ideal frames of the kernel are the generated ones, the
  reference's frame is its generated run with the result dropped, and the idealization rewrote nothing.
-/
import proofs.«136486_j16054587752846_1_alg».proof.Defs
import proofs.«136486_j16054587752846_1_alg».proof.Proof.Gen.Kernel
import proofs.«136486_j16054587752846_1_alg».proof.Proof.Gen.Kernel.Skeleton
import proofs.«136486_j16054587752846_1_alg».proof.Proof.Gen.Kernel.Launch
import proofs.«136486_j16054587752846_1_alg».proof.Proof.Gen.Kernel.Points
import proofs.«136486_j16054587752846_1_alg».proof.Proof.Gen.Kernel.Frame
import proofs.«136486_j16054587752846_1_alg».proof.Proof.Gen.KernelIdeal
import proofs.«136486_j16054587752846_1_alg».proof.Proof.Gen.KernelIdeal.Skeleton
import proofs.«136486_j16054587752846_1_alg».proof.Proof.Gen.KernelIdeal.Launch
import proofs.«136486_j16054587752846_1_alg».proof.Proof.Gen.KernelIdeal.Points
import proofs.«136486_j16054587752846_1_alg».proof.Proof.Gen.KernelIdeal.Frame
import proofs.«136486_j16054587752846_1_alg».proof.Proof.Gen.ReferenceIdeal
import proofs.«136486_j16054587752846_1_alg».proof.Proof.Gen.ReferenceIdeal.Run
import proofs.«136486_j16054587752846_1_alg».proof.Proof.Gen.ReferenceIdeal.Read
import proofs.«136486_j16054587752846_1_alg».proof.Proof.Gen.Pre_finite_inputs
import proofs.«136486_j16054587752846_1_alg».proof.Proof.RefSide
import proofs.«136486_j16054587752846_1_alg».proof.Proof.KernelRun
import Idealize.ShloMosaic.Adequacy
import Idealize.ShloMosaic.Init

noncomputable section

namespace Cert.Proof

open Idealize.ShloMosaic Idealize.SL.Sem

/-- The word-level kernel terminates without a fault and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the nine arguments, the kernel's result buffer and the reference's both end at the
    network of every row of the input: the same function of the same arguments. -/
theorem algebraic : Cert.algebraic_KernelIdeal_ReferenceIdeal := by
  intro m ρ m' ρ' _ hagree
  refine ⟨fun c => Cert.Mlp.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.Mlp.Kern.run m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5, a6, a7, a8⟩ := hagree c
  rw [(h c).1, Cert.ReferenceIdeal.Read.val_main_v18_eq, Cert.Mlp.Ref.result_eq, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
